-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel

variable [Facts]

def fn {F : FTy → Type} [FloatOps F] (main_arg0 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  main_v3
-- ==== Kernel.lean ====
abbrev S64x2x512x512 : Shape := ⟨4, ![64, 2, 512, 512]⟩
abbrev S64x1x512x512 : Shape := ⟨4, ![64, 1, 512, 512]⟩
abbrev S64x512x512 : Shape := ⟨3, ![64, 512, 512]⟩
abbrev S512x1 : Shape := ⟨2, ![512, 1]⟩
abbrev S8x512x512 : Shape := ⟨3, ![8, 512, 512]⟩
abbrev S8x512 : Shape := ⟨2, ![8, 512]⟩
abbrev S8x512x1 : Shape := ⟨3, ![8, 512, 1]⟩
abbrev S1x512 : Shape := ⟨2, ![1, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 7
  | .vmem => 9
  | .smem => 0
  | _ => 0

abbrev bufTy : (tb : Table) → Fin (tcTables nBuf tb) → BufTy
  | .hbm, ⟨0, _⟩ => ⟨S64x2x512x512, .f32⟩
  | .hbm, ⟨1, _⟩ => ⟨S64x1x512x512, .f32⟩
  | .hbm, ⟨2, _⟩ => ⟨S64x1x512x512, .f32⟩
  | .hbm, ⟨3, _⟩ => ⟨S64x512x512, .f32⟩
  | .hbm, ⟨4, _⟩ => ⟨S512x1, .f32⟩
  | .hbm, ⟨5, _⟩ => ⟨S1x512, .f32⟩
  | .hbm, ⟨6, _⟩ => ⟨S64x512x512, .f32⟩
  | .local _ .vmem, ⟨0, _⟩ => ⟨S8x512x512, .f32⟩
  | .local _ .vmem, ⟨1, _⟩ => ⟨S8x512x512, .f32⟩
  | .local _ .vmem, ⟨2, _⟩ => ⟨S512x1, .f32⟩
  | .local _ .vmem, ⟨3, _⟩ => ⟨S4x512x512, .f32⟩
  | .local _ .vmem, ⟨4, _⟩ => ⟨S4x512x512, .f32⟩
  | .local _ .vmem, ⟨5, _⟩ => ⟨S512x1, .f32⟩
  | .local _ .vmem, ⟨6, _⟩ => ⟨S1x512, .f32⟩
  | .local _ .vmem, ⟨7, _⟩ => ⟨S4x512x512, .f32⟩
  | .local _ .vmem, ⟨8, _⟩ => ⟨S4x512x512, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S64x2x512x512_S64x1x512x512_0_0_0_0 : S64x2x512x512.Slices ![0, 0, 0, 0] S64x1x512x512
  slices_S64x2x512x512_S64x1x512x512_0_1_0_0 : S64x2x512x512.Slices ![0, 1, 0, 0] S64x1x512x512
  shapeCasts_S64x1x512x512_S64x512x512 : S64x1x512x512.ShapeCasts S64x512x512
  inb_S512x1_S512x1_0_0 : ∀ a, (![0, 0] : Fin 2 → Nat) a + S512x1.size a ≤ S512x1.size a
  h_S512x1 : 0 < S512x1.numel
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  reduces_S8x512x512_S8x512 : S8x512x512.Reduces [2] S8x512
  shapeCasts_S8x512_S8x512x1 : S8x512.ShapeCasts S8x512x1
  reduces_S8x512x1_S512x1 : S8x512x1.Reduces [0] S512x1
  shapeCasts_S512x1_S512x1 : S512x1.ShapeCasts S512x1
  transposes_S512x1_S1x512_1_0 : S512x1.Transposes [1, 0] S1x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  shapeCasts_S512x512_S1x512x512 : S512x512.ShapeCasts S1x512x512
  broadcasts_S1x512x512_S4x512x512 : S1x512x512.Broadcasts S4x512x512
  dot_S4x512x512_S4x512x512_S4x512x512_2_2_1_1_0_0_wf : DotDims.WF S4x512x512 S4x512x512 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x512.size a ≤ S64x512x512.size a
  hwx1_0 : ∀ i : grid1.Coords, EltTy.bits .f32 = 32 ∨ (Rect.block (s := S64x512x512) S4x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x512.size a ≤ S64x512x512.size a
  hwx1_3 : ∀ i : grid1.Coords, EltTy.bits .f32 = 32 ∨ (Rect.block (s := S64x512x512) S4x512x512.size (cc1_transform_3 i) (hinb1_3 i)).WholeWords (EltTy.packing .f32)

variable [Facts₀]

def dot_S4x512x512_S4x512x512_S4x512x512_2_2_1_1_0_0 : DotDims S4x512x512 S4x512x512 S4x512x512 where
  lhsContracting := [2]
  rhsContracting := [2]
  lhsNonContracting := [1]
  rhsNonContracting := [1]
  lhsBatch := [0]
  rhsBatch := [0]
  wf := dot_S4x512x512_S4x512x512_S4x512x512_2_2_1_1_0_0_wf

abbrev win0_0 : Pipeline.Window sig grid0 :=
  Pipeline.Window.ofSpec (Memref.whole main_v2) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S4x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x2x512x512 : Shape := ⟨4, ![64, 2, 512, 512]⟩
abbrev S64x1x512x512 : Shape := ⟨4, ![64, 1, 512, 512]⟩
abbrev S64x512x512 : Shape := ⟨3, ![64, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩

abbrev nBuf : Space → Nat
  | .hbm => 17
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S64x1x512x512, .f32⟩
  | .hbm, ⟨2, _⟩ => ⟨S64x1x512x512, .f32⟩
  | .hbm, ⟨3, _⟩ => ⟨S64x512x512, .f32⟩
  | .hbm, ⟨4, _⟩ => ⟨S64x512x512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S64x512x512, .f32⟩
  | .hbm, ⟨9, _⟩ => ⟨S512x1, .f32⟩
  | .hbm, ⟨10, _⟩ => ⟨S1x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512x512, .f32⟩
  | .hbm, ⟨15, _⟩ => ⟨S64x512x512, .f32⟩
  | .hbm, ⟨16, _⟩ => ⟨S64x512x512, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]

class Facts₀ : Prop where
  slices_S64x2x512x512_S64x1x512x512_0_0_0_0 : S64x2x512x512.Slices ![0, 0, 0, 0] S64x1x512x512
  slices_S64x2x512x512_S64x1x512x512_0_1_0_0 : S64x2x512x512.Slices ![0, 1, 0, 0] S64x1x512x512
  shapeCasts_S64x1x512x512_S64x512x512 : S64x1x512x512.ShapeCasts S64x512x512
  reducesTo_S64x512x512_S512_d0_2 : S64x512x512.ReducesTo [0, 2] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  dot_S64x512x512_S64x512x512_S64x512x512_2_2_1_1_0_0_wf : DotDims.WF S64x512x512 S64x512x512 S64x512x512 [2] [2] [1] [1] [0] [0]

variable [Facts₀]

def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The mathematical content of the claim, stated once over literal shapes and free of either program.

From an input `x` of shape 64 × 2 × 512 × 512 only the time slice `x[:, 0]` is used; call it `a`,
of shape 64 × 512 × 512 (batch, vertex, feature). Each vertex `i` gets one scalar
`nrm a i = √(∑_b ∑_f a[b,i,f]²)`, the Frobenius norm of its (batch, feature) slab, and the result is
the cosine-similarity tensor `(∑_f a[b,i,f] · a[b,j,f]) / (nrm a i · nrm a j)`.
Both programs compute exactly this function on the extended reals; they differ only in how the
sums are grouped and in the layout of the norm vector (a column, a row, or a flat vector).
-/

noncomputable section

namespace Cert.Spec

open Idealize.ShloMosaic Idealize.ShloMosaic.ValueIdx

abbrev SX : Shape := ⟨4, ![64, 2, 512, 512]⟩
abbrev SA : Shape := ⟨3, ![64, 512, 512]⟩
abbrev SC : Shape := ⟨2, ![512, 1]⟩
abbrev SR : Shape := ⟨2, ![1, 512]⟩

/-- The time slice `x[:, 0]` as a rank-3 array. -/
def slice0 (x : SX.Idx → EReal) : SA.Idx → EReal := fun k =>
  x (ix4 (⟨(k 0).val, (k 0).isLt⟩ : Fin 64) (0 : Fin 2) (⟨(k 1).val, (k 1).isLt⟩ : Fin 512) (⟨(k 2).val, (k 2).isLt⟩ : Fin 512))

theorem slice0_ix3 (x : SX.Idx → EReal) (b : Fin 64) (i f : Fin 512) :
    slice0 x (ix3 b i f) = x (ix4 b 0 i f) := rfl

/-- The sum of squares of vertex `i`'s slab over batch and feature. -/
def sqsum (a : SA.Idx → EReal) (i : Fin 512) : EReal :=
  ∑ b : Fin 64, ∑ f : Fin 512, a (ix3 b i f) * a (ix3 b i f)

/-- The Frobenius norm of vertex `i`'s slab. -/
def nrm (a : SA.Idx → EReal) (i : Fin 512) : EReal := Ideal.sqrt (sqsum a i)

/-- The norms laid out as a 512 × 1 column. -/
def nrmCol (a : SA.Idx → EReal) : SC.Idx → EReal := fun y => nrm a (⟨(y 0).val, (y 0).isLt⟩ : Fin 512)

/-- The norms laid out as a 1 × 512 row. -/
def nrmRow (a : SA.Idx → EReal) : SR.Idx → EReal := fun y => nrm a (⟨(y 1).val, (y 1).isLt⟩ : Fin 512)

theorem nrmCol_ix2 (a : SA.Idx → EReal) (p : Fin 512) (q : Fin 1) : nrmCol a (ix2 p q) = nrm a p := rfl
theorem nrmRow_ix2 (a : SA.Idx → EReal) (q : Fin 1) (p : Fin 512) : nrmRow a (ix2 q p) = nrm a p := rfl

/-- The batched Gram matrix of `a` divided entrywise by the outer product of a column `n1` and a row `n2`. -/
def gramDiv (a : SA.Idx → EReal) (n1 : SC.Idx → EReal) (n2 : SR.Idx → EReal) : SA.Idx → EReal := fun k =>
  Ideal.div
    (∑ f : Fin 512, a (ix3 (⟨(k 0).val, (k 0).isLt⟩ : Fin 64) (⟨(k 1).val, (k 1).isLt⟩ : Fin 512) f)
        * a (ix3 (⟨(k 0).val, (k 0).isLt⟩ : Fin 64) (⟨(k 2).val, (k 2).isLt⟩ : Fin 512) f))
    (n1 (ix2 (⟨(k 1).val, (k 1).isLt⟩ : Fin 512) (0 : Fin 1)) * n2 (ix2 (0 : Fin 1) (⟨(k 2).val, (k 2).isLt⟩ : Fin 512)))

theorem gramDiv_ix3 (a : SA.Idx → EReal) (n1 : SC.Idx → EReal) (n2 : SR.Idx → EReal) (b : Fin 64) (i j : Fin 512) :
    gramDiv a n1 n2 (ix3 b i j)
      = Ideal.div (∑ f : Fin 512, a (ix3 b i f) * a (ix3 b j f)) (n1 (ix2 i (0 : Fin 1)) * n2 (ix2 (0 : Fin 1) j)) := rfl

/-- The whole result as one function of the input. -/
def G (x : SX.Idx → EReal) : SA.Idx → EReal :=
  gramDiv (slice0 x) (nrmCol (slice0 x)) (nrmRow (slice0 x))

end Cert.Spec

end
-- ==== Proof.RefValue.lean ====
import proofs.«136493_j57664230916911_1_alg».proof.Proof.Gen.ReferenceIdeal.Run
import proofs.«136493_j57664230916911_1_alg».proof.Proof.Gen.ReferenceIdeal.Read
import proofs.«136493_j57664230916911_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read

/-- Dropping axes 0 and 2 of a (batch, vertex, feature) index leaves its vertex coordinate. -/
theorem drop02_val (h : S64x512x512.ReducesTo [0, 2] S512) (k : S64x512x512.Idx) :
    (h.drop k 0 : Nat) = (k 1 : Nat) :=
  Shape.ReducesTo.drop_apply_val_of_eq h k 0 1

/-- The indices whose vertex coordinate is `i`, summed, are the double sum over batch and feature:
    the pair (batch, feature) and the index (batch, `i`, feature) determine each other. -/
theorem sum_filter_drop02 (h : S64x512x512.ReducesTo [0, 2] S512) (y : S64x512x512.Idx → EReal) (i : Fin 512) :
    ∑ k ∈ Finset.univ.filter (fun k => h.drop k = ValueIdx.ix1 i), y k
      = ∑ b : Fin 64, ∑ f : Fin 512, y (ValueIdx.ix3 b i f) := by
  rw [← Fintype.sum_prod_type' (f := fun (b : Fin 64) (f : Fin 512) => y (ValueIdx.ix3 b i f))]
  refine Finset.sum_nbij'
    (fun k => ((⟨(k 0).val, (k 0).isLt⟩ : Fin 64), (⟨(k 2).val, (k 2).isLt⟩ : Fin 512)))
    (fun p => ValueIdx.ix3 p.1 i p.2) ?_ ?_ ?_ ?_ ?_
  · intro k _; exact Finset.mem_univ _
  · intro p _
    refine Finset.mem_filter.2 ⟨Finset.mem_univ _, ?_⟩
    funext d
    match d with
    | ⟨0, _⟩ => exact Fin.ext (drop02_val h _)
  · intro k hk
    have hj := (Finset.mem_filter.1 hk).2
    have h1 : (k 1 : Nat) = i.val := by
      rw [← drop02_val h k, hj]
    funext a
    match a with
    | ⟨0, _⟩ => exact Fin.ext rfl
    | ⟨1, _⟩ => exact Fin.ext h1.symm
    | ⟨2, _⟩ => exact Fin.ext rfl
  · intro p _; exact Prod.ext (Fin.ext rfl) (Fin.ext rfl)
  · intro k hk
    have hj := (Finset.mem_filter.1 hk).2
    have h1 : (k 1 : Nat) = i.val := by
      rw [← drop02_val h k, hj]
    show y k = y (ValueIdx.ix3 (⟨(k 0).val, (k 0).isLt⟩ : Fin 64) i (⟨(k 2).val, (k 2).isLt⟩ : Fin 512))
    refine congrArg y (funext fun a => ?_)
    match a with
    | ⟨0, _⟩ => exact Fin.ext rfl
    | ⟨1, _⟩ => exact Fin.ext h1
    | ⟨2, _⟩ => exact Fin.ext rfl

/-- The reshaped time slice at (batch, vertex, feature) is the input at (batch, 0, vertex, feature). -/
theorem v2_ix3 (x : (⟨S64x2x512x512, .f32⟩ : BufTy).Contents (Elt Ideal)) (b : Fin 64) (i f : Fin 512) :
    val_main_v2 (F := Ideal) x (ValueIdx.ix3 b i f) = x (ValueIdx.ix4 b (0 : Fin 2) i f) := by
  rw [val_main_v2_apply, val_main_v0_apply]
  refine congrArg x (funext fun a => ?_)
  have hb := b.isLt; have hi := i.isLt; have hf := f.isLt
  match a with
  | ⟨0, _⟩ => exact Fin.ext (by show ((b.val * 512 + i.val) * 512 + f.val) / 262144 = b.val; omega)
  | ⟨1, _⟩ => exact Fin.ext rfl
  | ⟨2, _⟩ => exact Fin.ext (by show ((b.val * 512 + i.val) * 512 + f.val) / 512 % 512 = i.val; omega)
  | ⟨3, _⟩ => exact Fin.ext (by show ((b.val * 512 + i.val) * 512 + f.val) % 512 = f.val; omega)

/-- The square of the reshaped time slice, read at (batch, vertex, feature). -/
theorem v3_ix3 (x : (⟨S64x2x512x512, .f32⟩ : BufTy).Contents (Elt Ideal)) (b : Fin 64) (i f : Fin 512) :
    val_main_v3 (F := Ideal) x (ValueIdx.ix3 b i f)
      = Cert.Spec.slice0 x (ValueIdx.ix3 b i f) * Cert.Spec.slice0 x (ValueIdx.ix3 b i f) := by
  rw [val_main_v3_apply, Ideal.mulf_def, v2_ix3, Cert.Spec.slice0_ix3]

/-- The sum over axes 0 and 2 from the zero word is the slab's sum of squares. -/
theorem v4_ix1 (x : (⟨S64x2x512x512, .f32⟩ : BufTy).Contents (Elt Ideal)) (i : Fin 512) :
    val_main_v4 (F := Ideal) x (ValueIdx.ix1 i) = Cert.Spec.sqsum (Cert.Spec.slice0 x) i := by
  unfold val_main_v4 Host.reduceAdd
  rw [Ideal.hostReduceAdd_def]
  unfold Ideal.hostReduceAdd
  rw [sum_filter_drop02, val_main_cst_apply, Ideal.ofBits_def, Ideal.ofBits_zero_f32, zero_add]
  unfold Cert.Spec.sqsum
  refine Finset.sum_congr rfl fun b _ => Finset.sum_congr rfl fun f _ => ?_
  exact v3_ix3 x b i f

/-- Its square root is the slab's Frobenius norm. -/
theorem v5_ix1 (x : (⟨S64x2x512x512, .f32⟩ : BufTy).Contents (Elt Ideal)) (i : Fin 512) :
    val_main_v5 (F := Ideal) x (ValueIdx.ix1 i) = Cert.Spec.nrm (Cert.Spec.slice0 x) i := by
  rw [val_main_v5_apply, Ideal.hostUnary_sqrt_def, v4_ix1]
  rfl

/-- The broadcast product of the norm column and the norm row at (batch, i, j) is the product of the two norms. -/
theorem v13_ix3 (x : (⟨S64x2x512x512, .f32⟩ : BufTy).Contents (Elt Ideal)) (b : Fin 64) (i j : Fin 512) :
    val_main_v13 (F := Ideal) x (ValueIdx.ix3 b i j)
      = Cert.Spec.nrm (Cert.Spec.slice0 x) i * Cert.Spec.nrm (Cert.Spec.slice0 x) j := by
  rw [val_main_v13_apply, val_main_v12_apply, val_main_v11_apply, Ideal.mulf_def, val_main_v9_apply,
    val_main_v10_apply, val_main_v7_apply, val_main_v8_apply]
  have e1 : idx_main_v7 (idx_main_v9 (idx_main_v12 (idx_main_v13 (ValueIdx.ix3 b i j)))) = ValueIdx.ix1 i :=
    funext fun a => Fin.ext (by match a with | ⟨0, _⟩ => rfl)
  have e2 : idx_main_v8 (idx_main_v10 (idx_main_v12 (idx_main_v13 (ValueIdx.ix3 b i j)))) = ValueIdx.ix1 j :=
    funext fun a => Fin.ext (by match a with | ⟨0, _⟩ => rfl)
  rw [e1, e2, v5_ix1, v5_ix1]

/-- The batched contraction over the feature axis at (batch, i, j). -/
theorem v6_ix3 (x : (⟨S64x2x512x512, .f32⟩ : BufTy).Contents (Elt Ideal)) (b : Fin 64) (i j : Fin 512) :
    val_main_v6 (F := Ideal) x (ValueIdx.ix3 b i j)
      = ∑ f : Fin 512, Cert.Spec.slice0 x (ValueIdx.ix3 b i f) * Cert.Spec.slice0 x (ValueIdx.ix3 b j f) := by
  rw [val_main_v6_apply]
  refine Finset.sum_congr rfl fun f _ => ?_
  have el : lidx_main_v6 (ValueIdx.ix3 b i j) f = ValueIdx.ix3 b i f :=
    funext fun a => Fin.ext (by match a with | ⟨0, _⟩ => rfl | ⟨1, _⟩ => rfl | ⟨2, _⟩ => rfl)
  have er : ridx_main_v6 (ValueIdx.ix3 b i j) f = ValueIdx.ix3 b j f :=
    funext fun a => Fin.ext (by match a with | ⟨0, _⟩ => rfl | ⟨1, _⟩ => rfl | ⟨2, _⟩ => rfl)
  rw [el, er, v2_ix3, v2_ix3, Cert.Spec.slice0_ix3, Cert.Spec.slice0_ix3]

theorem ref_value (x : (⟨S64x2x512x512, .f32⟩ : BufTy).Contents (Elt Ideal)) :
    val_main_v14 (F := Ideal) x = Cert.Spec.G x := by
  funext k
  obtain ⟨b, i, j, rfl⟩ : ∃ (b : Fin 64) (i j : Fin 512), k = ValueIdx.ix3 b i j :=
    ⟨k 0, k 1, k 2, ValueIdx.eq_ix3 k⟩
  rw [val_main_v14_apply, Ideal.hostDivf_def, v6_ix3, v13_ix3]
  unfold Cert.Spec.G
  rw [Cert.Spec.gramDiv_ix3, Cert.Spec.nrmCol_ix2, Cert.Spec.nrmRow_ix2]

end Cert.ReferenceIdeal.RefValue

end
-- ==== Proof.NormValue.lean ====
import proofs.«136493_j57664230916911_1_alg».proof.Proof.Gen.KernelIdeal.Frame
import proofs.«136493_j57664230916911_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! ## What each control case leaves in the output buffer

The body stores into the whole `[512,1]` output buffer. At the first point it stores zeros and then the
accumulated value over the zeros just stored; at the middle points it stores the accumulated value over
what the point before left; at the last point it does the same and then stores the square root of that. -/

section Pieces
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- Middle points: one store covering the buffer, of the block's partial sums added to the running value. -/
theorem out_B (c : Dev nD) (i : grid0.Coords) (a1 : Memref sig .tc .vmem S8x512x512 .f32) (h1 : a1.IsWhole)
    (a2 : Memref sig .tc .vmem S512x1 .f32) (h2 : a2.IsWhole) (hc0 : ¬cond0_0 i) (hc1 : ¬cond0_1 i)
    (x : Vec F S8x512x512 .f32) (xo : Vec F S512x1 .f32) :
    out0_B_1 c i a1 h1 a2 h2 hc0 hc1 x xo = k0_pay2 x xo := by
  unfold out0_B_1
  rw [View.read_writes_eq_canon _ _ _ (cover0_B_1 c i a1 h1 a2 h2 hc0 hc1 x xo)]
  unfold kernelRun0_B
  dsimp only
  sl_unfold_words
  rw [View.canon_unit_zero hz]
  simp only [View.readAt_eq_ld, h1.read_unread, h2.read_unread, View.ld_unit_zero (S := S8x512x512) hz3,
    View.ld_unit_zero (S := S512x1) hz]

/-- First point: the zeros are stored, read back, and the block's partial sums are added to them. -/
theorem out_A (c : Dev nD) (i : grid0.Coords) (a1 : Memref sig .tc .vmem S8x512x512 .f32) (h1 : a1.IsWhole)
    (a2 : Memref sig .tc .vmem S512x1 .f32) (h2 : a2.IsWhole) (hc0 : cond0_0 i) (hc1 : ¬cond0_1 i)
    (x : Vec F S8x512x512 .f32) :
    out0_A_1 c i a1 h1 a2 h2 hc0 hc1 x = k0_pay2 x k0_pay1 := by
  unfold out0_A_1
  rw [View.read_writes_eq_canon _ _ _ (cover0_A_1 c i a1 h1 a2 h2 hc0 hc1 x)]
  unfold kernelRun0_A
  dsimp only
  sl_unfold_words
  rw [View.canon_cons_unit_zero (S := S512x1) hz, View.readCov_unit_zero (S := S512x1) _ hz]
  simp only [View.readAt_eq_ld, h1.read_unread, View.ld_unit_zero (S := S8x512x512) hz3]

/-- Last point: as at a middle point, and then the square root of what was just stored is stored over it. -/
theorem out_C (c : Dev nD) (i : grid0.Coords) (a1 : Memref sig .tc .vmem S8x512x512 .f32) (h1 : a1.IsWhole)
    (a2 : Memref sig .tc .vmem S512x1 .f32) (h2 : a2.IsWhole) (hc0 : ¬cond0_0 i) (hc1 : cond0_1 i)
    (x : Vec F S8x512x512 .f32) (xo : Vec F S512x1 .f32) :
    out0_C_1 c i a1 h1 a2 h2 hc0 hc1 x xo = k0_pay3 (k0_pay2 x xo) := by
  unfold out0_C_1
  rw [View.read_writes_eq_canon _ _ _ (cover0_C_1 c i a1 h1 a2 h2 hc0 hc1 x xo)]
  unfold kernelRun0_C
  dsimp only
  sl_unfold_words
  rw [View.canon_cons_unit_zero (S := S512x1) hz, View.readCov_unit_zero (S := S512x1) _ hz]
  simp only [View.readAt_eq_ld, h1.read_unread, h2.read_unread, View.ld_unit_zero (S := S8x512x512) hz3,
    View.ld_unit_zero (S := S512x1) hz]
end Pieces

/-! ## The payloads read at an index, on the extended reals -/

section Payloads

open Idealize.ShloMosaic.ValueIdx

/-- The stored zeros are the extended real `0`. -/
theorem pay1_apply (j : S512x1.Idx) : (k0_pay1 (F := Ideal) : Vec Ideal S512x1 .f32) j = (0 : EReal) :=
  Ideal.ofBits_zero_f32

/-- The accumulated value at vertex `p`: the running value plus the block's sum of squares over its
    eight batches and all features. -/
theorem pay2_apply (x : Vec Ideal S8x512x512 .f32) (acc : Vec Ideal S512x1 .f32) (p : Fin 512) (q : Fin 1) :
    (k0_pay2 (F := Ideal) x acc : Vec Ideal S512x1 .f32) (ix2 p q)
      = (acc (ix2 p q) : EReal) + ∑ b : Fin 8, ∑ f : Fin 512, ((x (ix3 b p f) : EReal) * x (ix3 b p f)) := by
  unfold k0_pay2
  dsimp only
  refine (addf_apply _ _ _).trans ?_
  refine congrArg₂ (· + ·) (congrFun (shapeCast_self acc _) (ix2 p q)) ?_
  refine (Ideal.multiReduction_add_single _ _ reduces_S8x512x1_S512x1 (.inl rfl) rfl (ix2 p q)).trans ?_
  refine Finset.sum_congr rfl fun b _ => ?_
  refine (shapeCast_apply _ shapeCasts_S8x512_S8x512x1 _ (ix2 b p) ?_).trans ?_
  · rw [Shape.rowMajor_val_two, Shape.rowMajor_val_three]
    show b.val * 512 + p.val = (b.val * 512 + p.val) * 1 + q.val
    have := q.isLt; omega
  refine (Ideal.multiReduction_add_single _ _ reduces_S8x512x512_S8x512 (.inl rfl) rfl (ix2 b p)).trans ?_
  refine Finset.sum_congr rfl fun f _ => ?_
  refine (mulf_apply _ _ _).trans ?_
  have e : reduces_S8x512x512_S8x512.lift (ix2 b p) f = ix3 b p f := by
    funext a; match a with | ⟨0, _⟩ => rfl | ⟨1, _⟩ => rfl | ⟨2, _⟩ => rfl
  rw [e, shapeCast_self]
  rfl

/-- The square root is taken entrywise. -/
theorem pay3_apply (v : Vec Ideal S512x1 .f32) (j : S512x1.Idx) :
    (k0_pay3 (F := Ideal) v : Vec Ideal S512x1 .f32) j = Ideal.sqrt (v j) := by
  unfold k0_pay3
  rw [shapeCast_self]
  rfl

end Payloads

/-! ## The input block and the array, by their literal types -/

section Blocks
open Idealize.ShloMosaic.ValueIdx

/-- The block of eight batches the kernel sees at point `t`. -/
abbrev xblk (c : Dev nD) (t : Fin cfg0.N) : Vec Ideal S8x512x512 .f32 := iblk0 V c 0 t
/-- The whole `[64,512,512]` array the blocks are cut from. -/
abbrev xarr (c : Dev nD) : Vec Ideal S64x512x512 .f32 := V c main_v2

/-- Batch `b'` of block `t` is batch `8 t + b'` of the array (taken modulo 64 so that it is an index for
    every natural `t`; for `t < 8` nothing wraps). -/
def bat (t : ℕ) (b' : Fin 8) : Fin 64 := ⟨(8 * t + b'.val) % 64, Nat.mod_lt _ (by norm_num)⟩

theorem idx_facts : ∀ t : Fin cfg0.N, win0_0.index t (0 : Fin 3) = t.val ∧ win0_0.index t (1 : Fin 3) = 0
    ∧ win0_0.index t (2 : Fin 3) = 0 :=
  (by decide +kernel : ∀ t : Fin grid0.N, win0_0.index t (0 : Fin 3) = t.val ∧ win0_0.index t (1 : Fin 3) = 0
    ∧ win0_0.index t (2 : Fin 3) = 0)

/-- The block read at an index: entry `(b', p, f)` of block `t` is entry `(8 t + b', p, f)` of the array. -/
theorem xblk_apply (c : Dev nD) (t : Fin cfg0.N) (b' : Fin 8) (p f : Fin 512) :
    xblk V c t (ix3 b' p f) = xarr V c (ix3 (bat t.val b') p f) := by
  have hN : t.val < 8 := lt_of_lt_of_eq t.isLt (show cfg0.N = 8 from N_0)
  obtain ⟨i0, i1, i2⟩ := idx_facts t
  show iblk0 V c 0 t (ix3 b' p f) = V c main_v2 (ix3 (bat t.val b') p f)
  unfold iblk0
  rw [View.read_apply]
  show V c main_v2 _ = V c main_v2 _
  congr 1
  funext a
  apply Fin.ext
  match a with
  | ⟨0, _⟩ => show win0_0.index t 0 * 8 + 1 * b'.val = (8 * t.val + b'.val) % 64
              rw [i0]; have := b'.isLt; omega
  | ⟨1, _⟩ => show win0_0.index t 1 * 512 + 1 * p.val = p.val
              rw [i1]; omega
  | ⟨2, _⟩ => show win0_0.index t 2 * 512 + 1 * f.val = f.val
              rw [i2]; omega

end Blocks

/-! ## The partial sums over the batches -/

section Sums
open Idealize.ShloMosaic.ValueIdx

/-- The sum of squares of vertex `p`'s features in one batch. -/
def slab (a : S64x512x512.Idx → EReal) (p : Fin 512) (b : Fin 64) : EReal :=
  ∑ f : Fin 512, a (ix3 b p f) * a (ix3 b p f)

/-- What block `t` contributes to vertex `p`: its eight batches' sums of squares. -/
def blockSum (a : S64x512x512.Idx → EReal) (p : Fin 512) (t : ℕ) : EReal := ∑ b' : Fin 8, slab a p (bat t b')

/-- The running value once the first `n` blocks have been added. -/
def partialSum (a : S64x512x512.Idx → EReal) (p : Fin 512) (n : ℕ) : EReal :=
  ∑ t ∈ Finset.range n, blockSum a p t

theorem partialSum_succ (a : S64x512x512.Idx → EReal) (p : Fin 512) (n : ℕ) :
    partialSum a p (n + 1) = partialSum a p n + blockSum a p n := Finset.sum_range_succ _ _

theorem partialSum_one (a : S64x512x512.Idx → EReal) (p : Fin 512) : partialSum a p 1 = blockSum a p 0 :=
  Finset.sum_range_one _

/-- The eight blocks of eight batches are the 64 batches, each once: batch `8 t + b'` is the image of
    `(t, b')` under the row-major bijection `Fin 8 × Fin 8 ≃ Fin 64`. The sum is over the extended reals,
    an additive commutative monoid, so it may be re-indexed freely. -/
theorem partialSum_eight (a : S64x512x512.Idx → EReal) (p : Fin 512) :
    partialSum a p 8 = Cert.Spec.sqsum a p := by
  unfold partialSum blockSum
  rw [← Fin.sum_univ_eq_sum_range (fun t => ∑ b' : Fin 8, slab a p (bat t b')) 8,
    ← Fintype.sum_prod_type' (fun (t : Fin 8) (b' : Fin 8) => slab a p (bat t.val b'))]
  refine Fintype.sum_equiv (finProdFinEquiv (m := 8) (n := 8)) _ (fun b : Fin 64 => slab a p b) ?_
  rintro ⟨t, b'⟩
  refine congrArg (slab a p) (Fin.ext ?_)
  show (8 * t.val + b'.val) % 64 = b'.val + 8 * t.val
  have := t.isLt; have := b'.isLt; omega

/-- The block's own sum of squares, as the payload forms it, is its contribution `blockSum`. -/
theorem block_contrib (c : Dev nD) (t : Fin cfg0.N) (p : Fin 512) :
    (∑ b : Fin 8, ∑ f : Fin 512, ((xblk V c t (ix3 b p f) : EReal) * xblk V c t (ix3 b p f)))
      = blockSum (xarr V c) p t.val :=
  Finset.sum_congr rfl fun b _ => Finset.sum_congr rfl fun f _ => by rw [xblk_apply]

end Sums

/-! ## The output buffer after each point -/

section Invariant
open Idealize.ShloMosaic.ValueIdx

/-- The first point leaves the first block's contribution (added to the zeros it stored). -/
theorem step_A (c : Dev nD) (t : Fin cfg0.N) (h0 : t.val % 8 = 0) (h1 : ¬t.val % 8 = 7) (p : Fin 512) (q : Fin 1) :
    (outsAt0 V c t.val t.isLt : Vec Ideal S512x1 .f32) (ix2 p q) = blockSum (xarr V c) p t.val := by
  rw [outsAt0_A V c t h0 h1]
  refine (congrFun (out_A (F := Ideal) c (grid0.coords t) (ms0_0 t) (hs0_0 t) (ms0_1 t) (hs0_1 t)
    ((hcond0_0 t).mpr h0) (fun h => h1 ((hcond0_1 t).mp h)) (xblk V c t)) (ix2 p q)).trans ?_
  refine (pay2_apply (xblk V c t) (k0_pay1 (F := Ideal)) p q).trans ?_
  rw [pay1_apply, zero_add]
  exact block_contrib V c t p

/-- A middle point adds its block's contribution to what the point before left. -/
theorem step_B (c : Dev nD) (t : Fin cfg0.N) (h0 : ¬t.val % 8 = 0) (h1 : ¬t.val % 8 = 7) (p : Fin 512) (q : Fin 1) :
    (outsAt0 V c t.val t.isLt : Vec Ideal S512x1 .f32) (ix2 p q)
      = (outsAt0 V c (t.val - 1) (Nat.lt_of_le_of_lt (Nat.sub_le _ _) t.isLt) : Vec Ideal S512x1 .f32) (ix2 p q)
        + blockSum (xarr V c) p t.val := by
  rw [outsAt0_B V c t h0 h1]
  refine (congrFun (out_B (F := Ideal) c (grid0.coords t) (ms0_0 t) (hs0_0 t) (ms0_1 t) (hs0_1 t)
    (fun h => h0 ((hcond0_0 t).mp h)) (fun h => h1 ((hcond0_1 t).mp h)) (xblk V c t)
    (outsAt0 V c (t.val - 1) (Nat.lt_of_le_of_lt (Nat.sub_le _ _) t.isLt))) (ix2 p q)).trans ?_
  refine (pay2_apply (xblk V c t) (outsAt0 V c (t.val - 1) (Nat.lt_of_le_of_lt (Nat.sub_le _ _) t.isLt)) p q).trans ?_
  rw [block_contrib V c t p]

/-- The last point adds its block's contribution likewise and leaves the square root of the total. -/
theorem step_C (c : Dev nD) (t : Fin cfg0.N) (h0 : ¬t.val % 8 = 0) (h1 : t.val % 8 = 7) (p : Fin 512) (q : Fin 1) :
    (outsAt0 V c t.val t.isLt : Vec Ideal S512x1 .f32) (ix2 p q)
      = Ideal.sqrt ((outsAt0 V c (t.val - 1) (Nat.lt_of_le_of_lt (Nat.sub_le _ _) t.isLt) : Vec Ideal S512x1 .f32) (ix2 p q)
        + blockSum (xarr V c) p t.val) := by
  rw [outsAt0_C V c t h0 h1]
  refine (congrFun (out_C (F := Ideal) c (grid0.coords t) (ms0_0 t) (hs0_0 t) (ms0_1 t) (hs0_1 t)
    (fun h => h0 ((hcond0_0 t).mp h)) ((hcond0_1 t).mpr h1) (xblk V c t)
    (outsAt0 V c (t.val - 1) (Nat.lt_of_le_of_lt (Nat.sub_le _ _) t.isLt))) (ix2 p q)).trans ?_
  refine (pay3_apply _ (ix2 p q)).trans ?_
  refine congrArg Ideal.sqrt ?_
  refine (pay2_apply (xblk V c t) (outsAt0 V c (t.val - 1) (Nat.lt_of_le_of_lt (Nat.sub_le _ _) t.isLt)) p q).trans ?_
  rw [block_contrib V c t p]

/-- THE INVARIANT. After point `n < 7` the buffer holds, at vertex `p`, the sum of squares over the first
    `n + 1` blocks: by induction on the point. -/
theorem outsAt_partial (c : Dev nD) (p : Fin 512) (q : Fin 1) : ∀ (n : ℕ) (hn : n < cfg0.N), n < 7 →
    (outsAt0 V c n hn : Vec Ideal S512x1 .f32) (ix2 p q) = partialSum (xarr V c) p (n + 1)
  | 0, hn, _ => by
    rw [partialSum_one]
    exact step_A V c ⟨0, hn⟩ rfl (by dsimp only; omega) p q
  | n + 1, hn, h7 => by
    have h0 : ¬(⟨n + 1, hn⟩ : Fin cfg0.N).val % 8 = 0 := by dsimp only; omega
    have h1 : ¬(⟨n + 1, hn⟩ : Fin cfg0.N).val % 8 = 7 := by dsimp only; omega
    refine (step_B V c ⟨n + 1, hn⟩ h0 h1 p q).trans ?_
    show (outsAt0 V c n _ : Vec Ideal S512x1 .f32) (ix2 p q) + blockSum (xarr V c) p (n + 1) = _
    rw [outsAt_partial c p q n (Nat.lt_of_succ_lt hn) (by omega), ← partialSum_succ]

/-- After the last point the buffer holds the norms column. -/
theorem outsAt_last (c : Dev nD) (h : 7 < cfg0.N) :
    (outsAt0 V c 7 h : Vec Ideal S512x1 .f32) = Cert.Spec.nrmCol (xarr V c) := by
  funext j
  obtain ⟨p, q, rfl⟩ : ∃ (p : Fin 512) (q : Fin 1), j = ix2 p q := ⟨j 0, j 1, eq_ix2 j⟩
  refine (step_C V c ⟨7, h⟩ (by dsimp only; omega) rfl p q).trans ?_
  show Ideal.sqrt ((outsAt0 V c 6 _ : Vec Ideal S512x1 .f32) (ix2 p q) + blockSum (xarr V c) p 7) = _
  rw [outsAt_partial V c p q 6 (by omega) (by norm_num), ← partialSum_succ, partialSum_eight]
  rfl

end Invariant

/-! ## The result array

Only the last point writes the output buffer back, and the output window's one block is the whole
`[512,1]` array: so the array ends holding what the last point left, the norms column. -/

section Final
open Idealize.ShloMosaic.ValueIdx
open Idealize.ShloMosaic.Pipeline (Dat)

/-- The same at the last point as the grid names it. -/
theorem outsAt_last' (c : Dev nD) :
    (outsAt0 V c t0_7.val t0_7.isLt : Vec Ideal S512x1 .f32) = Cert.Spec.nrmCol (xarr V c) :=
  outsAt_last V c t0_7.isLt

/-- What the one write-back writes is the norms column, read through the window's block, which is the whole array. -/
theorem flushed_eq (c : Dev nD) (t : Fin cfg0.N) (hf : (cfg0.win 1).flush t = true) :
    (dat0 (F := Ideal) V c).flushed 1 t
      = ((cfg0.win 1).blk t).view.read (Elt Ideal) (Cert.Spec.nrmCol (V c main_v2)) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1, outsAt_last' V c]
  have hz' : (fun a => win0_1.index t0_7 a * main_v3.ty.shape.size a) = fun _ => 0 :=
    funext fun a => by fin_cases a <;> decide
  exact (Memref.read_access_unit_zero (Elt Ideal) main_v3 hz' (fun a => by rw [congrFun hz' a]; simp)
    (Cert.Spec.nrmCol (V c main_v2))).symm

end Final

/-- The result array of the first region is the column of the vertices' norms. -/
theorem norm_value (c : Dev nD) :
    (dat0 (F := Ideal) V c).arrAt 1 cfg0.N = Cert.Spec.nrmCol (V c main_v2) := by
  exact (dat0 (F := Ideal) V c).arrAt_eq_of_cover 1 (Cert.Spec.nrmCol (V c main_v2)) (flushed_eq V c) fun i =>
    ⟨t0_7, (flush0_1 t0_7).mpr rfl, by
      show i ∈ ((View.whole main_v3).slice (win0_1.rect t0_7)).set
      rw [View.set_slice_whole, Rect.mem_set_unit]
      intro a
      have h0 : (i 0 : Nat) < 512 := (i 0).isLt
      have h1 : (i 1 : Nat) < 1 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 512 from by decide +kernel]
        omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 1 from by decide +kernel]
        omega⟩

end Cert.KernelIdeal.NormValue

end
-- ==== Proof.GramValue.lean ====
import proofs.«136493_j57664230916911_1_alg».proof.Proof.Gen.KernelIdeal.Frame
import proofs.«136493_j57664230916911_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GramValue

open Idealize.ShloMosaic Idealize.ShloMosaic.TcCoe Idealize.SL.Sem
open Cert.KernelIdeal Cert.KernelIdeal.Gen
open Idealize.ShloMosaic.ValueIdx

/-! ## The batched product of a block with itself, read at an index

The contraction runs over the feature axis (axis 2 of both operands), the batch axis is axis 0 of both, and the
free axis of each operand is its axis 1: the left operand is read at `(b, i, f)` and the right one at `(b, j, f)`. -/

theorem lhs_gram_0 (i : S4x512x512.Idx) (q : dot_S4x512x512_S4x512x512_S4x512x512_2_2_1_1_0_0.contr.Idx) :
    (dot_S4x512x512_S4x512x512_S4x512x512_2_2_1_1_0_0.lhsIdx i q 0).val = (i 0).val := by
  unfold DotDims.lhsIdx
  rw [dif_pos (show (0 : Fin S4x512x512.rank) ∈ dot_S4x512x512_S4x512x512_S4x512x512_2_2_1_1_0_0.lhsBatch by decide)]
  rfl
theorem lhs_gram_1 (i : S4x512x512.Idx) (q : dot_S4x512x512_S4x512x512_S4x512x512_2_2_1_1_0_0.contr.Idx) :
    (dot_S4x512x512_S4x512x512_S4x512x512_2_2_1_1_0_0.lhsIdx i q 1).val = (i 1).val := by
  unfold DotDims.lhsIdx
  rw [dif_neg (show ¬(1 : Fin S4x512x512.rank) ∈ dot_S4x512x512_S4x512x512_S4x512x512_2_2_1_1_0_0.lhsBatch by decide), dif_pos (show (1 : Fin S4x512x512.rank) ∈ dot_S4x512x512_S4x512x512_S4x512x512_2_2_1_1_0_0.lhsNonContracting by decide)]
  rfl
theorem lhs_gram_2 (i : S4x512x512.Idx) (q : dot_S4x512x512_S4x512x512_S4x512x512_2_2_1_1_0_0.contr.Idx) :
    (dot_S4x512x512_S4x512x512_S4x512x512_2_2_1_1_0_0.lhsIdx i q 2).val = (q ⟨0, by decide⟩).val :=
  dot_S4x512x512_S4x512x512_S4x512x512_2_2_1_1_0_0.lhsIdx_val_of_single rfl i q
theorem rhs_gram_0 (i : S4x512x512.Idx) (q : dot_S4x512x512_S4x512x512_S4x512x512_2_2_1_1_0_0.contr.Idx) :
    (dot_S4x512x512_S4x512x512_S4x512x512_2_2_1_1_0_0.rhsIdx i q 0).val = (i 0).val := by
  unfold DotDims.rhsIdx
  rw [dif_pos (show (0 : Fin S4x512x512.rank) ∈ dot_S4x512x512_S4x512x512_S4x512x512_2_2_1_1_0_0.rhsBatch by decide)]
  rfl
theorem rhs_gram_1 (i : S4x512x512.Idx) (q : dot_S4x512x512_S4x512x512_S4x512x512_2_2_1_1_0_0.contr.Idx) :
    (dot_S4x512x512_S4x512x512_S4x512x512_2_2_1_1_0_0.rhsIdx i q 1).val = (i 2).val := by
  unfold DotDims.rhsIdx
  rw [dif_neg (show ¬(1 : Fin S4x512x512.rank) ∈ dot_S4x512x512_S4x512x512_S4x512x512_2_2_1_1_0_0.rhsBatch by decide), dif_pos (show (1 : Fin S4x512x512.rank) ∈ dot_S4x512x512_S4x512x512_S4x512x512_2_2_1_1_0_0.rhsNonContracting by decide)]
  rfl
theorem rhs_gram_2 (i : S4x512x512.Idx) (q : dot_S4x512x512_S4x512x512_S4x512x512_2_2_1_1_0_0.contr.Idx) :
    (dot_S4x512x512_S4x512x512_S4x512x512_2_2_1_1_0_0.rhsIdx i q 2).val = (q ⟨0, by decide⟩).val :=
  dot_S4x512x512_S4x512x512_S4x512x512_2_2_1_1_0_0.rhsIdx_val_of_single rfl i q

/-- The product with a zero accumulator, at `(b, i, j)`: the sum over the features of the two rows' products. -/
theorem gram_matmul_apply (y : FVec Ideal S4x512x512 .bf16) (b' : Fin 4) (i j : Fin 512) :
    matmul dot_S4x512x512_S4x512x512_S4x512x512_2_2_1_1_0_0 none y y (constant (F := Ideal) S4x512x512 .f32 0x00000000#32) (ix3 b' i j)
      = ∑ f : Fin 512, y (ix3 b' i f) * y (ix3 b' j f) := by
  refine (Ideal.matmul_constant_zero_apply dot_S4x512x512_S4x512x512_S4x512x512_2_2_1_1_0_0 none y y (ix3 b' i j)).trans ?_
  rw [← Equiv.sum_comp (ValueIdx.contrEquiv1 dot_S4x512x512_S4x512x512_S4x512x512_2_2_1_1_0_0 512 rfl rfl).symm]
  refine Finset.sum_congr rfl fun k _ => ?_
  have hk := ValueIdx.contrEquiv1_symm_val dot_S4x512x512_S4x512x512_S4x512x512_2_2_1_1_0_0 512 rfl rfl k
  have el : dot_S4x512x512_S4x512x512_S4x512x512_2_2_1_1_0_0.lhsIdx (ix3 b' i j) ((ValueIdx.contrEquiv1 dot_S4x512x512_S4x512x512_S4x512x512_2_2_1_1_0_0 512 rfl rfl).symm k) = ix3 b' i k := funext fun a => Fin.ext (by
    match a with
    | ⟨0, _⟩ => exact lhs_gram_0 _ _
    | ⟨1, _⟩ => exact lhs_gram_1 _ _
    | ⟨2, _⟩ => exact (lhs_gram_2 _ _).trans hk)
  have er : dot_S4x512x512_S4x512x512_S4x512x512_2_2_1_1_0_0.rhsIdx (ix3 b' i j) ((ValueIdx.contrEquiv1 dot_S4x512x512_S4x512x512_S4x512x512_2_2_1_1_0_0 512 rfl rfl).symm k) = ix3 b' j k := funext fun a => Fin.ext (by
    match a with
    | ⟨0, _⟩ => exact rhs_gram_0 _ _
    | ⟨1, _⟩ => exact rhs_gram_1 _ _
    | ⟨2, _⟩ => exact (rhs_gram_2 _ _).trans hk)
  rw [el, er]

/-! ## The divisor: the column times the row, laid out over the block -/

/-- A `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, a, b]` array broadcast to `[m, a, b]` reads, at `(k, i, j)`, the operand at `(0, i, j)`. -/
theorem broadcastTo_1ab_mab_apply {α : Type} {m a b : ℕ} (v : (⟨3, ![1, a, b]⟩ : Shape).Idx → α) (h : (⟨3, ![1, a, b]⟩ : Shape).Broadcasts ⟨3, ![m, a, b]⟩)
    (k : Fin m) (i : Fin a) (j : Fin b) : broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-! ## The body's payload at an index -/

/-- What the body stores at `(b, i, j)` of its block: the Gram entry of rows `i` and `j` of batch `b`,
    divided by the column's entry at `i` times the row's entry at `j`. -/
theorem gram_payload_apply (x0 : Vec Ideal S4x512x512 .f32) (x1 : Vec Ideal S512x1 .f32) (x2 : Vec Ideal S1x512 .f32)
    (b' : Fin 4) (i j : Fin 512) :
    k1_pay1 x0 x1 x2 (ix3 b' i j)
      = Ideal.div (∑ f : Fin 512, x0 (ix3 b' i f) * x0 (ix3 b' j f)) (x1 (ix2 i (0 : Fin 1)) * x2 (ix2 (0 : Fin 1) j)) := by
  unfold k1_pay1
  refine (divf_apply _ _ _).trans ?_
  refine congrArg₂ Ideal.div ?_ ?_
  · refine (gram_matmul_apply _ b' i j).trans ?_
    refine Finset.sum_congr rfl fun f _ => ?_
    show shapeCast S4x512x512 x0 shapeCasts_S4x512x512_S4x512x512 (ix3 b' i f) * shapeCast S4x512x512 x0 shapeCasts_S4x512x512_S4x512x512 (ix3 b' j f) = _
    rw [shapeCast_self]
  · refine (broadcastTo_1ab_mab_apply _ _ b' i j).trans ?_
    refine (shapeCast_ab_1ab_apply _ _ (0 : Fin 1) i j).trans ?_
    refine (mulf_apply _ _ _).trans ?_
    refine congrArg₂ (· * ·) ?_ ?_
    · refine (broadcastTo_a1_ab_apply _ _ i j).trans ?_
      rw [shapeCast_self]
    · refine (broadcastTo_1b_ab_apply _ _ i j).trans ?_
      rw [shapeCast_self]

/-! ## One block of the result as a block of the quotient

Over variables of the literal block types: if the first block holds batches `4 t … 4 t + 3` of `a` and the other
two hold the column and the row, the payload at a block index is the batched Gram quotient at the array index
`4 t` batches further on. -/

theorem gram_block (a : Cert.Spec.SA.Idx → EReal) (n1 : Cert.Spec.SC.Idx → EReal) (n2 : Cert.Spec.SR.Idx → EReal)
    (x0 : Vec Ideal S4x512x512 .f32) (x1 : Vec Ideal S512x1 .f32) (x2 : Vec Ideal S1x512 .f32) (tv : Nat)
    (h0 : ∀ (y : S4x512x512.Idx) (k : S64x512x512.Idx), (k 0).val = 4 * tv + (y 0).val → (k 1).val = (y 1).val → (k 2).val = (y 2).val → x0 y = a k)
    (h1 : x1 = n1) (h2 : x2 = n2)
    (y : S4x512x512.Idx) (k : S64x512x512.Idx)
    (hk0 : (k 0).val = 4 * tv + (y 0).val) (hk1 : (k 1).val = (y 1).val) (hk2 : (k 2).val = (y 2).val) :
    k1_pay1 x0 x1 x2 y = Cert.Spec.gramDiv a n1 n2 k := by
  obtain ⟨b', i, j, rfl⟩ : ∃ (b' : Fin 4) (i j : Fin 512), y = ix3 b' i j := ⟨y 0, y 1, y 2, eq_ix3 y⟩
  obtain ⟨b, i', j', rfl⟩ : ∃ (b : Fin 64) (i' j' : Fin 512), k = ix3 b i' j' := ⟨k 0, k 1, k 2, eq_ix3 k⟩
  have hb : b.val = 4 * tv + b'.val := hk0
  obtain rfl : i' = i := Fin.ext hk1
  obtain rfl : j' = j := Fin.ext hk2
  subst h1 h2
  rw [gram_payload_apply, Cert.Spec.gramDiv_ix3]
  refine congrArg₂ Ideal.div (Finset.sum_congr rfl fun f _ => ?_) rfl
  rw [h0 (ix3 b' i' f) (ix3 b i' f) hb rfl rfl, h0 (ix3 b' j' f) (ix3 b j' f) hb rfl rfl]

variable (V : (c : Dev nD) → (b : Ref sig .tc) → Buf (Elt Ideal) ((c : Thread nD τ).loc b))

/-! ## The windows' blocks as parts of the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the batched windows move one block of four batches per point, the column's
    and the row's stay at block (0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The blocks and the arrays under their literal types. -/
abbrev xblk (c : Dev nD) (t : Fin cfg1.N) : Vec Ideal S4x512x512 .f32 := iblk1 V c 0 t
abbrev colblk (c : Dev nD) (t : Fin cfg1.N) : Vec Ideal S512x1 .f32 := iblk1 V c 1 t
abbrev rowblk (c : Dev nD) (t : Fin cfg1.N) : Vec Ideal S1x512 .f32 := iblk1 V c 2 t
abbrev arrA (c : Dev nD) : S64x512x512.Idx → EReal := V c main_v2
abbrev arrCol (c : Dev nD) : S512x1.Idx → EReal := V c main_v3
abbrev arrRow (c : Dev nD) : S1x512.Idx → EReal := V c main_v4

/-- Point `t`'s block of the batched input is batches `4 t … 4 t + 3` of the array. -/
theorem xblk_apply (c : Dev nD) (t : Fin cfg1.N) (y : S4x512x512.Idx) (k : S64x512x512.Idx)
    (hk0 : (k 0).val = 4 * t.val + (y 0).val) (hk1 : (k 1).val = (y 1).val) (hk2 : (k 2).val = (y 2).val) :
    xblk V c t y = arrA V c k := by
  obtain ⟨e0, e1, e2, -⟩ := idx_facts t
  show V c main_v2 (((cfg1.win 0).blk t).view.emb y) = V c main_v2 k
  refine congrArg (V c main_v2) (funext fun a => Fin.ext ?_)
  match a with
  | ⟨0, _⟩ => show win1_0.index t (0 : Fin 3) * 4 + 1 * (y 0).val = (k 0).val; omega
  | ⟨1, _⟩ => show win1_0.index t (1 : Fin 3) * 512 + 1 * (y 1).val = (k 1).val; omega
  | ⟨2, _⟩ => show win1_0.index t (2 : Fin 3) * 512 + 1 * (y 2).val = (k 2).val; omega

/-- The column's block is the whole column at every point. -/
theorem colblk_eq (c : Dev nD) (t : Fin cfg1.N) : colblk V c t = arrCol V c := by
  obtain ⟨-, -, -, e0, e1, -⟩ := idx_facts t
  funext y
  show V c main_v3 (((cfg1.win 1).blk t).view.emb y) = V c main_v3 y
  refine congrArg (V c main_v3) (funext fun a => Fin.ext ?_)
  match a with
  | ⟨0, _⟩ => show win1_1.index t (0 : Fin 2) * 512 + 1 * (y 0).val = (y 0).val; omega
  | ⟨1, _⟩ => show win1_1.index t (1 : Fin 2) * 1 + 1 * (y 1).val = (y 1).val; omega

/-- The row's block is the whole row at every point. -/
theorem rowblk_eq (c : Dev nD) (t : Fin cfg1.N) : rowblk V c t = arrRow V c := by
  obtain ⟨-, -, -, -, -, e0, e1, -⟩ := idx_facts t
  funext y
  show V c main_v4 (((cfg1.win 2).blk t).view.emb y) = V c main_v4 y
  refine congrArg (V c main_v4) (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

/-! ## What a point writes back -/

/-- Point `t` writes back block `t` of the batched Gram quotient of the arrays as the region finds them. -/
theorem flushed_eq (c : Dev nD) (t : Fin cfg1.N) :
    (dat1 (F := Ideal) V c).flushed 3 t
      = ((cfg1.win 3).blk t).view.read (Elt Ideal) (Cert.Spec.gramDiv (V c main_v2) (V c main_v3) (V c main_v4)) := by
  show (cfg1.win 3).cut (grid1.coords t) ((dat1 V c).after 3 t) = _
  rw [after1_3]
  unfold out1_3
  rw [View.canon_unit_zero hz3]
  simp only [View.ld_unit_zero (S := S4x512x512) hz3, View.ld_unit_zero (S := S512x1) hz2, View.ld_unit_zero (S := S1x512) hz2]
  obtain ⟨-, -, -, -, -, -, -, e0, e1, e2⟩ := idx_facts t
  funext y
  show k1_pay1 (xblk V c t) (colblk V c t) (rowblk V c t) y
    = Cert.Spec.gramDiv (arrA V c) (arrCol V c) (arrRow V c) (((cfg1.win 3).blk t).view.emb y)
  refine gram_block (arrA V c) (arrCol V c) (arrRow V c) (xblk V c t) (colblk V c t) (rowblk V c t) t.val
    (fun y k => xblk_apply V c t y k) (colblk_eq V c t) (rowblk_eq V c t) y _ ?_ ?_ ?_
  · show win1_3.index t (0 : Fin 3) * 4 + 1 * (y 0).val = 4 * t.val + (y 0).val; omega
  · show win1_3.index t (1 : Fin 3) * 512 + 1 * (y 1).val = (y 1).val; omega
  · show win1_3.index t (2 : Fin 3) * 512 + 1 * (y 2).val = (y 2).val; omega

/-! ## From the blocks to the array -/

/-- An index of the result array is in point `t`'s block iff each coordinate is in the block's range on its axis. -/
theorem mem_blk (t : Fin cfg1.N) (i : S64x512x512.Idx) :
    i ∈ ((cfg1.win 3).blk t).view.set ↔ ∀ a : Fin 3, win1_3.index t a * S4x512x512.size a ≤ (i a).val ∧ (i a).val < win1_3.index t a * S4x512x512.size a + S4x512x512.size a := by
  show i ∈ ((View.whole main_v5).slice (win1_3.rect t)).set ↔ _
  rw [View.set_slice_whole, Rect.mem_set_unit]
  exact Iff.rfl

/-- Every index of the result array is written back by some point: batch `b` by point `b / 4`. -/
theorem covered (i : S64x512x512.Idx) :
    ∃ t : Fin cfg1.N, (cfg1.win 3).flush t = true ∧ i ∈ ((cfg1.win 3).blk t).view.set := by
  have hi0 : (i 0).val < 64 := (i 0).isLt
  have hi1 : (i 1).val < 512 := (i 1).isLt
  have hi2 : (i 2).val < 512 := (i 2).isLt
  obtain ⟨t, ht⟩ : ∃ t : Fin cfg1.N, t.val = (i 0).val / 4 :=
    ⟨⟨(i 0).val / 4, by rw [show cfg1.N = 16 from N_1]; omega⟩, rfl⟩
  obtain ⟨-, -, -, -, -, -, -, e0, e1, e2⟩ := idx_facts t
  refine ⟨t, flush1_3 t, ?_⟩
  rw [mem_blk]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 512 ≤ (i 1).val ∧ (i 1).val < win1_3.index t (1 : Fin 3) * 512 + 512; omega
  | ⟨2, _⟩ => show win1_3.index t (2 : Fin 3) * 512 ≤ (i 2).val ∧ (i 2).val < win1_3.index t (2 : Fin 3) * 512 + 512; omega

/-- The result array after the region: the batched Gram quotient of the arrays as the region finds them. -/
theorem gram_value (c : Dev nD) :
    (dat1 (F := Ideal) V c).arrAt 3 cfg1.N = Cert.Spec.gramDiv (V c main_v2) (V c main_v3) (V c main_v4) :=
  (dat1 (F := Ideal) V c).arrAt_eq_of_cover 3 (Cert.Spec.gramDiv (V c main_v2) (V c main_v3) (V c main_v4))
    (fun t _ => flushed_eq V c t) covered

end Cert.KernelIdeal.GramValue

end
-- ==== Proof.KernelValue.lean ====
import proofs.«136493_j57664230916911_1_alg».proof.Proof.Gen.KernelIdeal.Frame
import proofs.«136493_j57664230916911_1_alg».proof.Proof.Spec
import proofs.«136493_j57664230916911_1_alg».proof.Proof.NormValue
import proofs.«136493_j57664230916911_1_alg».proof.Proof.GramValue
import Idealize.ShloMosaic.Lib.Pipeline.Value
import Idealize.ShloMosaic.Lib.ValueIdx
import Idealize.ShloMosaic.Lib.StableHlo.Run

/-!
The value of the idealized kernel program's result, read through its four segments.

The host lines before the first region cut the time slice `x[:, 0]` out of the input and drop its unit
axis: the first region is entered with that slice `a`. The first region leaves `a` in place and the column
of norms in its output. The one host line between the regions transposes the column into a row. The
second region then divides the batched Gram matrix of `a` by the outer product of column and row:
the specification's `G`.
-/

noncomputable section

namespace Cert.KernelIdeal.KernelValue

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- The first region's input array as the host lines before it leave it: the slice, reshaped. -/
theorem entry0_main_v2 (c : Dev nD) :
    V1 m ρ c main_v2
      = shapeCast _ (extractStridedSlice S64x1x512x512 ![0, 0, 0, 0] (m ((c : Thread nD τ).loc main_arg0)) slices_S64x2x512x512_S64x1x512x512_0_0_0_0) shapeCasts_S64x1x512x512_S64x512x512 := by
  show StableHlo.after hostOps0 (W0 m ρ c) (Proc.devRef .tc main_v2) = _
  after_results
  rfl

/-- Index by index that array is the specification's time slice. -/
theorem entry0_eq_slice (c : Dev nD) :
    V1 m ρ c main_v2 = Cert.Spec.slice0 (m ((c : Thread nD τ).loc main_arg0)) := by
  rw [entry0_main_v2]
  funext k
  obtain ⟨b, i, f, rfl⟩ : ∃ (b : Fin 64) (i f : Fin 512), k = ix3 b i f := ⟨k 0, k 1, k 2, eq_ix3 k⟩
  rw [Cert.Spec.slice0_ix3]
  refine (shapeCast_apply _ shapeCasts_S64x1x512x512_S64x512x512 (ix3 b i f) (ix4 b (0 : Fin 1) i f) ?_).trans ?_
  · rw [Shape.rowMajor_val_four, Shape.rowMajor_val_three]
    show ((b.val * 1 + 0) * 512 + i.val) * 512 + f.val = (b.val * 512 + i.val) * 512 + f.val
    omega
  · exact extractStridedSlice_apply ![0, 0, 0, 0] _ slices_S64x2x512x512_S64x1x512x512_0_0_0_0 (ix4 b (0 : Fin 1) i f) (ix4 b (0 : Fin 2) i f)
      (fun a => match a with
        | ⟨0, _⟩ => by show b.val = 0 + b.val; omega
        | ⟨1, _⟩ => by show 0 = 0 + 0; omega
        | ⟨2, _⟩ => by show i.val = 0 + i.val; omega
        | ⟨3, _⟩ => by show f.val = 0 + f.val; omega)

/-- The first region only reads its input array. -/
theorem exit0_main_v2 (c : Dev nD) : V2 m ρ c main_v2 = V1 m ρ c main_v2 :=
  (W2_arr m ρ c 0).trans (((dat0 (V1 m ρ) c).arrAt_in 0 rfl cfg0.N).trans (A_eq0 (V1 m ρ) c 0))

/-- Its output array ends at the column of norms of its input. -/
theorem exit0_main_v3 (c : Dev nD) : V2 m ρ c main_v3 = Cert.Spec.nrmCol (V1 m ρ c main_v2) :=
  (W2_arr m ρ c 1).trans (Cert.KernelIdeal.NormValue.norm_value (V1 m ρ) c)

/-- The host line between the regions writes neither of these two arrays, -/
theorem entry1_main_v2 (c : Dev nD) : V3 m ρ c main_v2 = V2 m ρ c main_v2 := by
  show StableHlo.after hostOps1 (W2 m ρ c) (Proc.devRef .tc main_v2) = _
  after_results

theorem entry1_main_v3 (c : Dev nD) : V3 m ρ c main_v3 = V2 m ρ c main_v3 := by
  show StableHlo.after hostOps1 (W2 m ρ c) (Proc.devRef .tc main_v3) = _
  after_results

/-- and writes the transpose of the column. -/
theorem entry1_main_v4 (c : Dev nD) :
    V3 m ρ c main_v4 = transpose S1x512 [1, 0] (V2 m ρ c main_v3) transposes_S512x1_S1x512_1_0 := by
  show StableHlo.after hostOps1 (W2 m ρ c) (Proc.devRef .tc main_v4) = _
  after_results

/-- The transpose of the column of norms is the row of norms. -/
theorem transpose_nrmCol (a : Cert.Spec.SA.Idx → EReal) :
    transpose S1x512 [1, 0] (Cert.Spec.nrmCol a) transposes_S512x1_S1x512_1_0 = Cert.Spec.nrmRow a := by
  funext y
  obtain ⟨q, p, rfl⟩ : ∃ (q : Fin 1) (p : Fin 512), y = ix2 q p := ⟨y 0, y 1, eq_ix2 y⟩
  refine (transpose_apply [1, 0] (Cert.Spec.nrmCol a) transposes_S512x1_S1x512_1_0 (ix2 q p) (ix2 p q)
    (fun b => match b with | ⟨0, _⟩ => rfl | ⟨1, _⟩ => rfl)).trans ?_
  rfl

/-- The result array after the run is the specification's function of the input. -/
theorem result (c : Dev nD) :
    (dat1 (V3 m ρ) c).arrAt 3 cfg1.N = Cert.Spec.G (m ((c : Thread nD τ).loc main_arg0)) := by
  have e2 : V3 m ρ c main_v2 = Cert.Spec.slice0 (m ((c : Thread nD τ).loc main_arg0)) :=
    (entry1_main_v2 m ρ c).trans ((exit0_main_v2 m ρ c).trans (entry0_eq_slice m ρ c))
  have e3 : V3 m ρ c main_v3 = Cert.Spec.nrmCol (Cert.Spec.slice0 (m ((c : Thread nD τ).loc main_arg0))) :=
    (entry1_main_v3 m ρ c).trans ((exit0_main_v3 m ρ c).trans (congrArg Cert.Spec.nrmCol (entry0_eq_slice m ρ c)))
  have e4 : V3 m ρ c main_v4 = Cert.Spec.nrmRow (Cert.Spec.slice0 (m ((c : Thread nD τ).loc main_arg0))) := by
    rw [entry1_main_v4, ← entry1_main_v3, e3]
    exact transpose_nrmCol _
  rw [Cert.KernelIdeal.GramValue.gram_value (V3 m ρ) c, e2, e3, e4]
  rfl

end Cert.KernelIdeal.KernelValue

end
-- ==== Proof.lean ====
/-
  Cosine similarity of vertex slabs: for an input `x` of shape 64 × 2 × 512 × 512 let `a = x[:, 0]`
  (batch, vertex, feature). Both programs return, at (b, i, j),
  `(∑_f a[b,i,f] · a[b,j,f]) / (n_i · n_j)` with `n_i = √(∑_b ∑_f a[b,i,f]²)`.

  The kernel program computes the norms in a first grid of eight steps, each adding the squares of eight
  batches into a resident column and the last taking the square root; a host transpose makes the row; a
  second grid of sixteen steps forms, four batches at a time, the Gram matrices (the operands narrowed
  to half precision, which is the identity on the extended reals) and divides by the outer product of
  column and row. The reference sums the squares over batch and feature at once, takes the root, and
  divides one batched product by the broadcast outer product.

  On the extended reals addition is commutative and associative at every value, so the two groupings of
  the sum of squares agree without any appeal to finiteness; everything else is the same expression
  index by index (`Cert.Spec.G`).

  The frames of the two kernel programs are the generated ones; the reference's frame is its run with the
  result dropped; the idealization rewrote nothing, so `preserves` is trivial.
-/
import proofs.«136493_j57664230916911_1_alg».proof.Defs
import proofs.«136493_j57664230916911_1_alg».proof.Proof.Gen.Kernel
import proofs.«136493_j57664230916911_1_alg».proof.Proof.Gen.Kernel.Skeleton
import proofs.«136493_j57664230916911_1_alg».proof.Proof.Gen.Kernel.Launch
import proofs.«136493_j57664230916911_1_alg».proof.Proof.Gen.Kernel.Points
import proofs.«136493_j57664230916911_1_alg».proof.Proof.Gen.Kernel.Frame
import proofs.«136493_j57664230916911_1_alg».proof.Proof.Gen.KernelIdeal
import proofs.«136493_j57664230916911_1_alg».proof.Proof.Gen.KernelIdeal.Skeleton
import proofs.«136493_j57664230916911_1_alg».proof.Proof.Gen.KernelIdeal.Launch
import proofs.«136493_j57664230916911_1_alg».proof.Proof.Gen.KernelIdeal.Points
import proofs.«136493_j57664230916911_1_alg».proof.Proof.Gen.KernelIdeal.Frame
import proofs.«136493_j57664230916911_1_alg».proof.Proof.Gen.ReferenceIdeal
import proofs.«136493_j57664230916911_1_alg».proof.Proof.Gen.ReferenceIdeal.Run
import proofs.«136493_j57664230916911_1_alg».proof.Proof.Gen.ReferenceIdeal.Read
import proofs.«136493_j57664230916911_1_alg».proof.Proof.Gen.Pre_finite_inputs
import proofs.«136493_j57664230916911_1_alg».proof.Proof.Spec
import proofs.«136493_j57664230916911_1_alg».proof.Proof.RefValue
import proofs.«136493_j57664230916911_1_alg».proof.Proof.KernelRun
import proofs.«136493_j57664230916911_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the result array at `Cert.Spec.G` of the common input. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KernelValue.result m ρ c), (h c).2⟩)
      (Cert.KernelIdeal.KernelRun.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.ReferenceIdeal.RefValue.ref_value, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
